-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1025x1024 : Shape := ⟨3, ![64, 1025, 1024]⟩
abbrev S1x528x1024 : Shape := ⟨3, ![1, 528, 1024]⟩
abbrev S1x1x256 : Shape := ⟨3, ![1, 1, 256]⟩
abbrev S_ : Shape := ⟨0, ![]⟩

class Facts : Prop where
  bcast_S_S64x1025x1024 : S_.BroadcastsInDim S64x1025x1024 (![] : Fin 0 → Fin S64x1025x1024.rank)
  reducesTo_S64x1025x1024_S_d0_1_2 : S64x1025x1024.ReducesTo [0, 1, 2] S_
  h_S_ : 0 < S_.numel
  bcast_S_S1x528x1024 : S_.BroadcastsInDim S1x528x1024 (![] : Fin 0 → Fin S1x528x1024.rank)
  reducesTo_S1x528x1024_S_d0_1_2 : S1x528x1024.ReducesTo [0, 1, 2] S_
  bcast_S_S1x1x256 : S_.BroadcastsInDim S1x1x256 (![] : Fin 0 → Fin S1x1x256.rank)
  reducesTo_S1x1x256_S_d0_1_2 : S1x1x256.ReducesTo [0, 1, 2] S_

variable [Facts]

def fn {F : FTy → Type} [FloatOps F] (main_arg0 : FVec F S64x1025x1024 .f32) (main_arg1 : FVec F S1x528x1024 .f32) (main_arg2 : FVec F S1x1x256 .f32) : IVec S_ 1 :=
  let main_v0 : FVec F S64x1025x1024 .f32 := Host.absf main_arg0
  let main_cst : FVec F S_ .f32 := constant S_ .f32 0x7F800000#32
  let main_v1 : FVec F S64x1025x1024 .f32 := broadcastInDim S64x1025x1024 ![] bcast_S_S64x1025x1024 main_cst
  let main_v2 : IVec S64x1025x1024 1 := cmpf .olt main_v0 main_v1
  let main_c : IVec S_ 1 := constantI S_ 1 1#1
  let main_v3 : IVec S_ 1 := (fun x v => Host.reduce IntOp.andi x v reducesTo_S64x1025x1024_S_d0_1_2 h_S_) main_v2 main_c
  let main_v4 : FVec F S1x528x1024 .f32 := Host.absf main_arg1
  let main_cst_0 : FVec F S_ .f32 := constant S_ .f32 0x7F800000#32
  let main_v5 : FVec F S1x528x1024 .f32 := broadcastInDim S1x528x1024 ![] bcast_S_S1x528x1024 main_cst_0
  let main_v6 : IVec S1x528x1024 1 := cmpf .olt main_v4 main_v5
  let main_c_1 : IVec S_ 1 := constantI S_ 1 1#1
  let main_v7 : IVec S_ 1 := (fun x v => Host.reduce IntOp.andi x v reducesTo_S1x528x1024_S_d0_1_2 h_S_) main_v6 main_c_1
  let main_v8 : IVec S_ 1 := andi main_v3 main_v7
  let main_v9 : FVec F S1x1x256 .f32 := Host.absf main_arg2
  let main_cst_2 : FVec F S_ .f32 := constant S_ .f32 0x7F800000#32
  let main_v10 : FVec F S1x1x256 .f32 := broadcastInDim S1x1x256 ![] bcast_S_S1x1x256 main_cst_2
  let main_v11 : IVec S1x1x256 1 := cmpf .olt main_v9 main_v10
  let main_c_3 : IVec S_ 1 := constantI S_ 1 1#1
  let main_v12 : IVec S_ 1 := (fun x v => Host.reduce IntOp.andi x v reducesTo_S1x1x256_S_d0_1_2 h_S_) main_v11 main_c_3
  let main_v13 : IVec S_ 1 := andi main_v8 main_v12
  main_v13
-- ==== Kernel.lean ====
abbrev S64x1025x1024 : Shape := ⟨3, ![64, 1025, 1024]⟩
abbrev S1x528x1024 : Shape := ⟨3, ![1, 528, 1024]⟩
abbrev S1x1x256 : Shape := ⟨3, ![1, 1, 256]⟩
abbrev S1024 : Shape := ⟨1, ![1024]⟩
abbrev S1024x1 : Shape := ⟨2, ![1024, 1]⟩
abbrev S1024x4 : Shape := ⟨2, ![1024, 4]⟩
abbrev S528x1024 : Shape := ⟨2, ![528, 1024]⟩
abbrev S528x4x256 : Shape := ⟨3, ![528, 4, 256]⟩
abbrev S_ : Shape := ⟨0, ![]⟩
abbrev S1024x4x256 : Shape := ⟨3, ![1024, 4, 256]⟩
abbrev S1024x4x1 : Shape := ⟨3, ![1024, 4, 1]⟩
abbrev S1024x4x2 : Shape := ⟨3, ![1024, 4, 2]⟩
abbrev S1024x1024 : Shape := ⟨2, ![1024, 1024]⟩
abbrev S1x256 : Shape := ⟨2, ![1, 256]⟩
abbrev S1x1x1x256 : Shape := ⟨4, ![1, 1, 1, 256]⟩
abbrev S1x1x4x256 : Shape := ⟨4, ![1, 1, 4, 256]⟩
abbrev S1x1024 : Shape := ⟨2, ![1, 1024]⟩
abbrev S1025x1024 : Shape := ⟨2, ![1025, 1024]⟩
abbrev S16x128x1024 : Shape := ⟨3, ![16, 128, 1024]⟩
abbrev S128x1024 : Shape := ⟨2, ![128, 1024]⟩
abbrev S1x128x1024 : Shape := ⟨3, ![1, 128, 1024]⟩

abbrev nBuf : Space → Nat
  | .hbm => 37
  | .vmem => 6
  | .smem => 0
  | _ => 0

abbrev bufTy : (tb : Table) → Fin (tcTables nBuf tb) → BufTy
  | .hbm, ⟨0, _⟩ => ⟨S64x1025x1024, .f32⟩
  | .hbm, ⟨1, _⟩ => ⟨S1x528x1024, .f32⟩
  | .hbm, ⟨2, _⟩ => ⟨S1x1x256, .f32⟩
  | .hbm, ⟨3, _⟩ => ⟨S1024, .i32⟩
  | .hbm, ⟨4, _⟩ => ⟨S1024, .i1⟩
  | .hbm, ⟨5, _⟩ => ⟨S1024x1, .i32⟩
  | .hbm, ⟨6, _⟩ => ⟨S1024x1, .i1⟩
  | .hbm, ⟨7, _⟩ => ⟨S1024x4, .i32⟩
  | .hbm, ⟨8, _⟩ => ⟨S1024x4, .i1⟩
  | .hbm, ⟨9, _⟩ => ⟨S528x1024, .f32⟩
  | .hbm, ⟨10, _⟩ => ⟨S528x4x256, .f32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1024x4x256, .f32⟩
  | .hbm, ⟨17, _⟩ => ⟨S_, .i32⟩
  | .hbm, ⟨18, _⟩ => ⟨S1024x1, .i32⟩
  | .hbm, ⟨19, _⟩ => ⟨S1024x1, .i32⟩
  | .hbm, ⟨20, _⟩ => ⟨S1024x1, .i32⟩
  | .hbm, ⟨21, _⟩ => ⟨S_, .i32⟩
  | .hbm, ⟨22, _⟩ => ⟨S1024x4, .i32⟩
  | .hbm, ⟨23, _⟩ => ⟨S1024x4, .i32⟩
  | .hbm, ⟨24, _⟩ => ⟨S1024x4, .i32⟩
  | .hbm, ⟨25, _⟩ => ⟨S1024x4, .i32⟩
  | .hbm, ⟨26, _⟩ => ⟨S1024x4x1, .i32⟩
  | .hbm, ⟨27, _⟩ => ⟨S1024x4x1, .i32⟩
  | .hbm, ⟨28, _⟩ => ⟨S1024x4x2, .i32⟩
  | .hbm, ⟨29, _⟩ => ⟨S1024x4x256, .f32⟩
  | .hbm, ⟨30, _⟩ => ⟨S1024x1024, .f32⟩
  | .hbm, ⟨31, _⟩ => ⟨S1x256, .f32⟩
  | .hbm, ⟨32, _⟩ => ⟨S1x1x1x256, .f32⟩
  | .hbm, ⟨33, _⟩ => ⟨S1x1x4x256, .f32⟩
  | .hbm, ⟨34, _⟩ => ⟨S1x1024, .f32⟩
  | .hbm, ⟨35, _⟩ => ⟨S1025x1024, .f32⟩
  | .hbm, ⟨36, _⟩ => ⟨S64x1025x1024, .f32⟩
  | .local _ .vmem, ⟨0, _⟩ => ⟨S16x128x1024, .f32⟩
  | .local _ .vmem, ⟨1, _⟩ => ⟨S16x128x1024, .f32⟩
  | .local _ .vmem, ⟨2, _⟩ => ⟨S128x1024, .f32⟩
  | .local _ .vmem, ⟨3, _⟩ => ⟨S128x1024, .f32⟩
  | .local _ .vmem, ⟨4, _⟩ => ⟨S16x128x1024, .f32⟩
  | .local _ .vmem, ⟨5, _⟩ => ⟨S16x128x1024, .f32⟩
  | _, _ => ⟨S64x1025x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_c_5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_7 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x528x1024_S528x1024 : S1x528x1024.ShapeCasts S528x1024
  shapeCasts_S528x1024_S528x4x256 : S528x1024.ShapeCasts S528x4x256
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x4 : S_.BroadcastsInDim S1024x4 (![] : Fin 0 → Fin S1024x4.rank)
  bcast_S1024x1_S1024x4_0_1 : S1024x1.BroadcastsInDim S1024x4 (![0, 1] : Fin 2 → Fin S1024x4.rank)
  bcast_S1024x4_S1024x4x1_0_1 : S1024x4.BroadcastsInDim S1024x4x1 (![0, 1] : Fin 2 → Fin S1024x4x1.rank)
  concatenates_S1024x4x1_S1024x4x1_S1024x4x2_d2 : Shape.Concatenates [S1024x4x1, S1024x4x1] S1024x4x2 2
  shapeCasts_S1024x4x256_S1024x1024 : S1024x4x256.ShapeCasts S1024x1024
  shapeCasts_S1x1x256_S1x256 : S1x1x256.ShapeCasts S1x256
  shapeCasts_S1x256_S1x1x1x256 : S1x256.ShapeCasts S1x1x1x256
  bcast_S1x1x1x256_S1x1x4x256_0_1_2_3 : S1x1x1x256.BroadcastsInDim S1x1x4x256 (![0, 1, 2, 3] : Fin 4 → Fin S1x1x4x256.rank)
  shapeCasts_S1x1x4x256_S1x1024 : S1x1x4x256.ShapeCasts S1x1024
  concatenates_S1x1024_S1024x1024_S1025x1024_d0 : Shape.Concatenates [S1x1024, S1024x1024] S1025x1024 0
  inb_S16x128x1024_S16x128x1024_0_0_0 : ∀ a, (![0, 0, 0] : Fin 3 → Nat) a + S16x128x1024.size a ≤ S16x128x1024.size a
  h_S16x128x1024 : 0 < S16x128x1024.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  shapeCasts_S128x1024_S1x128x1024 : S128x1024.ShapeCasts S1x128x1024
  broadcasts_S1x128x1024_S16x128x1024 : S1x128x1024.Broadcasts S16x128x1024
  gather_S528x4x256_S1024x1_S1024x4x256_12_0_n_n_0_1_14256_wf : GatherDims.WF S528x4x256 S1024x1 S1024x4x256 [1, 2] [0] [] [0] [] 1 ![1, 4, 256]
  gather_S1024x4x256_S1024x4x2_S1024x4x256_2_01_n_n_01_2_11256_wf : GatherDims.WF S1024x4x256 S1024x4x2 S1024x4x256 [2] [0, 1] [] [0, 1] [] 2 ![1, 1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x128x1024.size a < S64x1025x1024.size a
  hwx0_0 : ∀ i : grid0.Coords, EltTy.bits .f32 = 32 ∨ (Rect.unit (s := S64x1025x1024) (fun a => cc0_transform_0 i a * S16x128x1024.size a) (fun a => (Pipeline.Clip.of (cc0_transform_0 i a) (S16x128x1024.size a) (S64x1025x1024.size a)).extent (S16x128x1024.size a)) fun a => Pipeline.Clip.inb (Pipeline.Clip.ok_of (hstart0_0 i a))).WholeWords (EltTy.packing .f32)
  hwxs0_0 : ∀ i : grid0.Coords, EltTy.bits .f32 = 32 ∨ (Rect.unit (s := S16x128x1024) (fun _ => 0) (fun a => (Pipeline.Clip.of (cc0_transform_0 i a) (S16x128x1024.size a) (S64x1025x1024.size a)).extent (S16x128x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x1024.size a < S1025x1024.size a
  hwx0_1 : ∀ i : grid0.Coords, EltTy.bits .f32 = 32 ∨ (Rect.unit (s := S1025x1024) (fun a => cc0_transform_1 i a * S128x1024.size a) (fun a => (Pipeline.Clip.of (cc0_transform_1 i a) (S128x1024.size a) (S1025x1024.size a)).extent (S128x1024.size a)) fun a => Pipeline.Clip.inb (Pipeline.Clip.ok_of (hstart0_1 i a))).WholeWords (EltTy.packing .f32)
  hwxs0_1 : ∀ i : grid0.Coords, EltTy.bits .f32 = 32 ∨ (Rect.unit (s := S128x1024) (fun _ => 0) (fun a => (Pipeline.Clip.of (cc0_transform_1 i a) (S128x1024.size a) (S1025x1024.size a)).extent (S128x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16x128x1024.size a < S64x1025x1024.size a
  hwx0_2 : ∀ i : grid0.Coords, EltTy.bits .f32 = 32 ∨ (Rect.unit (s := S64x1025x1024) (fun a => cc0_transform_2 i a * S16x128x1024.size a) (fun a => (Pipeline.Clip.of (cc0_transform_2 i a) (S16x128x1024.size a) (S64x1025x1024.size a)).extent (S16x128x1024.size a)) fun a => Pipeline.Clip.inb (Pipeline.Clip.ok_of (hstart0_2 i a))).WholeWords (EltTy.packing .f32)
  hwxs0_2 : ∀ i : grid0.Coords, EltTy.bits .f32 = 32 ∨ (Rect.unit (s := S16x128x1024) (fun _ => 0) (fun a => (Pipeline.Clip.of (cc0_transform_2 i a) (S16x128x1024.size a) (S64x1025x1024.size a)).extent (S16x128x1024.size a)) fun a => (Nat.zero_add _).trans_le (Pipeline.Clip.extent_le (Pipeline.Clip.ok_of (hstart0_2 i a)))).WholeWords (EltTy.packing .f32)

variable [Facts₀]

def gather_S528x4x256_S1024x1_S1024x4x256_12_0_n_n_0_1_14256 : GatherDims S528x4x256 S1024x1 S1024x4x256 where
  offsetDims := [1, 2]
  collapsedSliceDims := [0]
  operandBatchingDims := []
  startIndicesBatchingDims := []
  startIndexMap := [0]
  indexVectorDim := 1
  sliceSizes := ![1, 4, 256]
  wf := gather_S528x4x256_S1024x1_S1024x4x256_12_0_n_n_0_1_14256_wf
def gather_S1024x4x256_S1024x4x2_S1024x4x256_2_01_n_n_01_2_11256 : GatherDims S1024x4x256 S1024x4x2 S1024x4x256 where
  offsetDims := [2]
  collapsedSliceDims := [0, 1]
  operandBatchingDims := []
  startIndicesBatchingDims := []
  startIndexMap := [0, 1]
  indexVectorDim := 2
  sliceSizes := ![1, 1, 256]
  wf := gather_S1024x4x256_S1024x4x2_S1024x4x256_2_01_n_n_01_2_11256_wf

abbrev win0_0 : Pipeline.Window sig grid0 :=
  Pipeline.Window.ofSpecClip (Memref.whole main_arg0) S16x128x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v23) S128x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v24) S16x128x1024.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1025x1024 : Shape := ⟨3, ![64, 1025, 1024]⟩
abbrev S1x528x1024 : Shape := ⟨3, ![1, 528, 1024]⟩
abbrev S1x1x256 : Shape := ⟨3, ![1, 1, 256]⟩
abbrev S1024 : Shape := ⟨1, ![1024]⟩
abbrev S1024x1 : Shape := ⟨2, ![1024, 1]⟩
abbrev S1024x4 : Shape := ⟨2, ![1024, 4]⟩
abbrev S528x1024 : Shape := ⟨2, ![528, 1024]⟩
abbrev S528x4x256 : Shape := ⟨3, ![528, 4, 256]⟩
abbrev S_ : Shape := ⟨0, ![]⟩
abbrev S1024x4x256 : Shape := ⟨3, ![1024, 4, 256]⟩
abbrev S1024x4x1 : Shape := ⟨3, ![1024, 4, 1]⟩
abbrev S1024x4x2 : Shape := ⟨3, ![1024, 4, 2]⟩
abbrev S1024x1024 : Shape := ⟨2, ![1024, 1024]⟩
abbrev S1x256 : Shape := ⟨2, ![1, 256]⟩
abbrev S1x1x1x256 : Shape := ⟨4, ![1, 1, 1, 256]⟩
abbrev S1x1x4x256 : Shape := ⟨4, ![1, 1, 4, 256]⟩
abbrev S1x1024 : Shape := ⟨2, ![1, 1024]⟩
abbrev S1025x1024 : Shape := ⟨2, ![1025, 1024]⟩
abbrev S1x1025x1024 : Shape := ⟨3, ![1, 1025, 1024]⟩

abbrev nBuf : Space → Nat
  | .hbm => 39
  | .vmem => 0
  | .smem => 0
  | _ => 0

abbrev bufTy : (tb : Table) → Fin (tcTables nBuf tb) → BufTy
  | .hbm, ⟨0, _⟩ => ⟨S64x1025x1024, .f32⟩
  | .hbm, ⟨1, _⟩ => ⟨S1x528x1024, .f32⟩
  | .hbm, ⟨2, _⟩ => ⟨S1x1x256, .f32⟩
  | .hbm, ⟨3, _⟩ => ⟨S1024, .i32⟩
  | .hbm, ⟨4, _⟩ => ⟨S1024, .i1⟩
  | .hbm, ⟨5, _⟩ => ⟨S1024x1, .i32⟩
  | .hbm, ⟨6, _⟩ => ⟨S1024x1, .i1⟩
  | .hbm, ⟨7, _⟩ => ⟨S1024x4, .i32⟩
  | .hbm, ⟨8, _⟩ => ⟨S1024x4, .i1⟩
  | .hbm, ⟨9, _⟩ => ⟨S528x1024, .f32⟩
  | .hbm, ⟨10, _⟩ => ⟨S528x4x256, .f32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1024x4x256, .f32⟩
  | .hbm, ⟨17, _⟩ => ⟨S_, .i32⟩
  | .hbm, ⟨18, _⟩ => ⟨S1024x1, .i32⟩
  | .hbm, ⟨19, _⟩ => ⟨S1024x1, .i32⟩
  | .hbm, ⟨20, _⟩ => ⟨S1024x1, .i32⟩
  | .hbm, ⟨21, _⟩ => ⟨S_, .i32⟩
  | .hbm, ⟨22, _⟩ => ⟨S1024x4, .i32⟩
  | .hbm, ⟨23, _⟩ => ⟨S1024x4, .i32⟩
  | .hbm, ⟨24, _⟩ => ⟨S1024x4, .i32⟩
  | .hbm, ⟨25, _⟩ => ⟨S1024x4, .i32⟩
  | .hbm, ⟨26, _⟩ => ⟨S1024x4x1, .i32⟩
  | .hbm, ⟨27, _⟩ => ⟨S1024x4x1, .i32⟩
  | .hbm, ⟨28, _⟩ => ⟨S1024x4x2, .i32⟩
  | .hbm, ⟨29, _⟩ => ⟨S1024x4x256, .f32⟩
  | .hbm, ⟨30, _⟩ => ⟨S1024x1024, .f32⟩
  | .hbm, ⟨31, _⟩ => ⟨S1x256, .f32⟩
  | .hbm, ⟨32, _⟩ => ⟨S1x1x1x256, .f32⟩
  | .hbm, ⟨33, _⟩ => ⟨S1x1x4x256, .f32⟩
  | .hbm, ⟨34, _⟩ => ⟨S1x1024, .f32⟩
  | .hbm, ⟨35, _⟩ => ⟨S1025x1024, .f32⟩
  | .hbm, ⟨36, _⟩ => ⟨S1x1025x1024, .f32⟩
  | .hbm, ⟨37, _⟩ => ⟨S64x1025x1024, .f32⟩
  | .hbm, ⟨38, _⟩ => ⟨S64x1025x1024, .f32⟩
  | _, _ => ⟨S64x1025x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_c_5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_7 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  shapeCasts_S1x528x1024_S528x1024 : S1x528x1024.ShapeCasts S528x1024
  shapeCasts_S528x1024_S528x4x256 : S528x1024.ShapeCasts S528x4x256
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x4 : S_.BroadcastsInDim S1024x4 (![] : Fin 0 → Fin S1024x4.rank)
  bcast_S1024x1_S1024x4_0_1 : S1024x1.BroadcastsInDim S1024x4 (![0, 1] : Fin 2 → Fin S1024x4.rank)
  bcast_S1024x4_S1024x4x1_0_1 : S1024x4.BroadcastsInDim S1024x4x1 (![0, 1] : Fin 2 → Fin S1024x4x1.rank)
  concatenates_S1024x4x1_S1024x4x1_S1024x4x2_d2 : Shape.Concatenates [S1024x4x1, S1024x4x1] S1024x4x2 2
  shapeCasts_S1024x4x256_S1024x1024 : S1024x4x256.ShapeCasts S1024x1024
  shapeCasts_S1x1x256_S1x256 : S1x1x256.ShapeCasts S1x256
  shapeCasts_S1x256_S1x1x1x256 : S1x256.ShapeCasts S1x1x1x256
  bcast_S1x1x1x256_S1x1x4x256_0_1_2_3 : S1x1x1x256.BroadcastsInDim S1x1x4x256 (![0, 1, 2, 3] : Fin 4 → Fin S1x1x4x256.rank)
  shapeCasts_S1x1x4x256_S1x1024 : S1x1x4x256.ShapeCasts S1x1024
  concatenates_S1x1024_S1024x1024_S1025x1024_d0 : Shape.Concatenates [S1x1024, S1024x1024] S1025x1024 0
  bcast_S1025x1024_S1x1025x1024_1_2 : S1025x1024.BroadcastsInDim S1x1025x1024 (![1, 2] : Fin 2 → Fin S1x1025x1024.rank)
  bcast_S1x1025x1024_S64x1025x1024_0_1_2 : S1x1025x1024.BroadcastsInDim S64x1025x1024 (![0, 1, 2] : Fin 3 → Fin S64x1025x1024.rank)
  gather_S528x4x256_S1024x1_S1024x4x256_12_0_n_n_0_1_14256_wf : GatherDims.WF S528x4x256 S1024x1 S1024x4x256 [1, 2] [0] [] [0] [] 1 ![1, 4, 256]
  gather_S1024x4x256_S1024x4x2_S1024x4x256_2_01_n_n_01_2_11256_wf : GatherDims.WF S1024x4x256 S1024x4x2 S1024x4x256 [2] [0, 1] [] [0, 1] [] 2 ![1, 1, 256]

variable [Facts₀]

def gather_S528x4x256_S1024x1_S1024x4x256_12_0_n_n_0_1_14256 : GatherDims S528x4x256 S1024x1 S1024x4x256 where
  offsetDims := [1, 2]
  collapsedSliceDims := [0]
  operandBatchingDims := []
  startIndicesBatchingDims := []
  startIndexMap := [0]
  indexVectorDim := 1
  sliceSizes := ![1, 4, 256]
  wf := gather_S528x4x256_S1024x1_S1024x4x256_12_0_n_n_0_1_14256_wf
def gather_S1024x4x256_S1024x4x2_S1024x4x256_2_01_n_n_01_2_11256 : GatherDims S1024x4x256 S1024x4x2 S1024x4x256 where
  offsetDims := [2]
  collapsedSliceDims := [0, 1]
  operandBatchingDims := []
  startIndicesBatchingDims := []
  startIndexMap := [0, 1]
  indexVectorDim := 2
  sliceSizes := ![1, 1, 256]
  wf := gather_S1024x4x256_S1024x4x2_S1024x4x256_2_01_n_n_01_2_11256_wf

class Facts : Prop extends Facts₀ where

variable [Facts]
-- ==== Proof.KBody.lean ====
/-
  The frame of the kernel program as printed, by hand (every statement holds at any reading of the floats): the pallas_call adds to each block of the first operand
  x[64, 1025, 1024] the matching rows of the host table pos[1025, 1024], laid along the batch axis. The grid is 4 x 9
  with blocks (16, 128, 1024) of x and of the result and (128, 1024) of pos; 1025 is not a multiple of 128, so at the
  last point of the sequence axis the three transfers are cut to the ONE row that lies inside the arrays, and the
  rest of each staging buffer then holds words nothing names. The body loads both input buffers whole, adds, and
  stores the whole result buffer, the unnamed rows included; the write-back moves only the rows inside the array.
  So the proof data name each buffer only on the part its transfers move: an input buffer holds its block filled out
  with anything, and the stored sum, on the moved part, reads each input only on ITS moved part (entry (a, b, d) reads
  x's buffer at (a, b, d) and pos's at (b, d), and all three windows move the same rows).
-/
import proofs.«169798_j41120016892507_1_alg».proof.Proof.Gen.Kernel.Frame
import proofs.«169798_j41120016892507_1_alg».proof.Proof.Gen.Kernel.Skeleton
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body: two whole loads, the sum with the table block laid along the batch axis, one whole store -/

abbrev r3 : Rect S16x128x1024 := Rect.unit (s := S16x128x1024) ![0, 0, 0] S16x128x1024.size inb_S16x128x1024_S16x128x1024_0_0_0
abbrev r2 : Rect S128x1024 := Rect.unit (s := S128x1024) ![0, 0] S128x1024.size inb_S128x1024_S128x1024_0_0

/-- What the result's staging buffer holds after the body, from what the two input buffers hold. -/
def out2 (x0 : Vec F S16x128x1024 .f32) (x1 : Vec F S128x1024 .f32) : Vec F S16x128x1024 .f32 :=
  View.canon [⟨r3, k0_pay1 (View.ld x0 r3) (View.ld x1 r2)⟩]

theorem cover2 (p0 : Vec F S16x128x1024 .f32) (y : S16x128x1024.Idx) :
    ∃ pc ∈ ([⟨r3, p0⟩] : List (View.Piece (Elt F) S16x128x1024 .f32)), y ∈ pc.1.set :=
  View.cover_of_tiled [⟨r3, p0⟩] S16x128x1024.size (by rfl) y

set_option maxHeartbeats 1000000 in
theorem sound_kernel (c : Dev nD) (E : Set ℕ) (i : grid0.Coords)
    (arg2 : Memref sig .tc .vmem S16x128x1024 .f32) (harg2 : arg2.IsWhole)
    (arg3 : Memref sig .tc .vmem S128x1024 .f32) (harg3 : arg3.IsWhole)
    (arg4 : Memref sig .tc .vmem S16x128x1024 .f32) (harg4 : arg4.IsWhole)
    (x0 : Vec F S16x128x1024 .f32) (x1 : Vec F S128x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc0__add_kernel i arg2 harg2 arg3 harg3 arg4 harg4) K := by
  simp only [cc0__add_kernel_eq_skeleton]; unfold cc0__add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The stored value at an index -/

theorem out2_eq (x0 : Vec F S16x128x1024 .f32) (x1 : Vec F S128x1024 .f32) : out2 x0 x1 = k0_pay1 x0 x1 := by
  have hz3 : (![0, 0, 0] : Fin 3 → Nat) = fun _ => 0 := funext fun a => by fin_cases a <;> rfl
  have hz2 : (![0, 0] : Fin 2 → Nat) = fun _ => 0 := funext fun a => by fin_cases a <;> rfl
  unfold out2
  rw [View.canon_unit_zero hz3]
  simp only [View.ld_unit_zero (S := S16x128x1024) hz3, View.ld_unit_zero (S := S128x1024) hz2]

/-- Entry (a, b, d) of the stored block is the first operand's entry there plus the table block's entry (b, d): the
    table block is laid along the batch axis. -/
theorem pay_apply (x0 : Vec F S16x128x1024 .f32) (x1 : Vec F S128x1024 .f32) (a : Fin 16) (b : Fin 128) (d : Fin 1024) :
    k0_pay1 x0 x1 (ix3 a b d) = FloatOps.addf (x0 (ix3 a b d)) (x1 (ix2 b d)) := by
  unfold k0_pay1
  show FloatOps.addf (x0 (ix3 a b d)) (broadcastTo S16x128x1024 (shapeCast S1x128x1024 (shapeCast S128x1024 x1 _) _) _ (ix3 a b d)) = _
  refine congrArg (FloatOps.addf (x0 (ix3 a b d))) ?_
  refine (broadcastTo_apply _ _ (ix3 a b d) (ix3 (0 : Fin 1) b d) (fun ax => ?_)).trans ?_
  · match ax with
    | ⟨0, _⟩ => rfl
    | ⟨1, _⟩ => rfl
    | ⟨2, _⟩ => rfl
  · refine (shapeCast_ab_1ab_apply _ _ (0 : Fin 1) b d).trans ?_
    rw [shapeCast_self]

/-! ## What the clipped transfers move, decided over the grid -/

/-- At every point the first operand's and the result's transfers move whole batch rows and whole lanes, the table's
    whole lanes; on the sequence axis all three move the same number of rows (128, or one at the array's end). -/
theorem moved_sizes : ∀ t : Fin cfg0.N,
    win0_0.xsize (grid0.coords t) 0 = 16 ∧ win0_0.xsize (grid0.coords t) 2 = 1024
    ∧ win0_1.xsize (grid0.coords t) 1 = 1024 ∧ win0_1.xsize (grid0.coords t) 0 = win0_0.xsize (grid0.coords t) 1
    ∧ (∀ a, win0_2.xsize (grid0.coords t) a = win0_0.xsize (grid0.coords t) a) :=
  (by decide +kernel : ∀ t : Fin grid0.N, _)

theorem fetch0_2 : ∀ t : Fin cfg0.N, (cfg0.win 2).fetch t = false :=
  (by decide +kernel : ∀ t : Fin grid0.N, win0_2.fetch t = false)

/-- On the part a transfer moves, a filled block does not depend on what it was filled over. -/
theorem fill_irrel {G : Pipeline.Grid} {α : Type} (w : Window sig G) (i : G.Coords) (d d' : w.block.Idx → α)
    (g : (w.xblock i).Idx → α) {j : w.block.Idx} (h : w.moved i j = true) : w.fill i d g j = w.fill i d' g j := by
  unfold Window.fill; rw [dif_pos h, dif_pos h]

/-! ## The proof data -/

/-- The first operand's block at point `t`, filled out past the array's end with the zero word; the table's likewise. -/
def xfill (c : Dev nD) (t : Fin cfg0.N) : S16x128x1024.Idx → Elt F .f32 :=
  win0_0.fill (grid0.coords t) (fun _ => Scalar.ofBits .f32 0#32) (iblk m c 0 t)
def pfill (c : Dev nD) (t : Fin cfg0.N) : S128x1024.Idx → Elt F .f32 :=
  win0_1.fill (grid0.coords t) (fun _ => Scalar.ofBits .f32 0#32) (iblk m c 1 t)

/-- The arrays as the region finds them; after the body the two input buffers at their filled blocks and the result's at
    the stored sum of those; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => pfill m c t
    | ⟨2, _⟩ => k0_pay1 (xfill m c t) (pfill m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = pfill m c t := by dsimp only [dats]
theorem after0_2 (c : Dev nD) (t : Fin cfg0.N) : (dats m 0 c).after 2 t = k0_pay1 (xfill m c t) (pfill m c t) := by dsimp only [dats]

/-- What the body finds: the two input buffers just fetched, the block on the part inside the array and `d` elsewhere; -/
theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]
/-- the result's buffer at contents nothing names (it was written back at the point before). -/
theorem before_2 (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The body obligation -/

/-- The stored block at any index of the staging shape. -/
theorem pay_apply' (x0 : Vec F S16x128x1024 .f32) (x1 : Vec F S128x1024 .f32) (J : S16x128x1024.Idx) :
    k0_pay1 x0 x1 J = FloatOps.addf (x0 J) (x1 (@ix2 128 1024 (J 1) (J 2))) := by
  rw [eq_ix3 J]; exact pay_apply x0 x1 (J 0) (J 1) (J 2)

/-- The stored sum at an index whose coordinates all lie on the part the first operand's transfer moves reads both
    input buffers on the parts their fetches filled: it does not depend on what they were filled over. -/
theorem pay_irrel (c : Dev nD) (t : Fin cfg0.N) (d0 d0' : S16x128x1024.Idx → Elt F .f32) (d1 d1' : S128x1024.Idx → Elt F .f32)
    (J : S16x128x1024.Idx) (hJ : ∀ a, (J a).val < win0_0.xsize (grid0.coords t) a) :
    k0_pay1 (win0_0.fill (grid0.coords t) d0 (iblk m c 0 t)) (win0_1.fill (grid0.coords t) d1 (iblk m c 1 t)) J
      = k0_pay1 (win0_0.fill (grid0.coords t) d0' (iblk m c 0 t)) (win0_1.fill (grid0.coords t) d1' (iblk m c 1 t)) J := by
  obtain ⟨h00, h02, h11, h10, h2⟩ := moved_sizes t
  rw [pay_apply', pay_apply']
  have m0 : win0_0.moved (grid0.coords t) J = true := (win0_0.moved_iff (grid0.coords t) J).mpr hJ
  have m1 : win0_1.moved (grid0.coords t) (@ix2 128 1024 (J 1) (J 2)) = true := by
    refine (win0_1.moved_iff (grid0.coords t) _).mpr fun a => ?_
    match a with
    | ⟨0, h⟩ => exact lt_of_lt_of_eq (hJ 1) h10.symm
    | ⟨1, h⟩ => exact lt_of_lt_of_eq (hJ 2) (h02.trans h11.symm)
  rw [fill_irrel win0_0 _ d0 d0' _ m0, fill_irrel win0_1 _ d1 d1' _ m1]

theorem cut_pay (c : Dev nD) (t : Fin cfg0.N) (d0 d0' : S16x128x1024.Idx → Elt F .f32) (d1 d1' : S128x1024.Idx → Elt F .f32) :
    win0_2.cut (grid0.coords t)
        (k0_pay1 (win0_0.fill (grid0.coords t) d0 (iblk m c 0 t)) (win0_1.fill (grid0.coords t) d1 (iblk m c 1 t)))
      = win0_2.cut (grid0.coords t)
        (k0_pay1 (win0_0.fill (grid0.coords t) d0' (iblk m c 0 t)) (win0_1.fill (grid0.coords t) d1' (iblk m c 1 t))) := by
  funext j
  exact pay_irrel m c t d0 d0' d1 d1' (win0_2.xinj (grid0.coords t) j)
    (fun a => lt_of_lt_of_eq (j a).isLt ((moved_sizes t).2.2.2.2 a))

/-- An input buffer that holds its block filled out with `d0` holds what the obligation asks of a loose window: the
    block on the moved part. -/
theorem leaf_x (c : Dev nD) (t : Fin cfg0.N) (d0 : S16x128x1024.Idx → Elt F .f32) (M : Memref sig .tc .vmem S16x128x1024 .f32) :
    owns (c : Thread nD τ) M fullShare (win0_0.fill (grid0.coords t) d0 (iblk m c 0 t))
      ⊢ (iprop(∃ d, owns (c : Thread nD τ) M fullShare
          (win0_0.fill (grid0.coords t) d (win0_0.cut (grid0.coords t) ((dats m 0 c).after 0 t)))) : sProp 𝕄) := by
  rw [after0_0]; unfold xfill; rw [win0_0.cut_fill]
  iintro H; iexists d0; iexact H

theorem leaf_p (c : Dev nD) (t : Fin cfg0.N) (d1 : S128x1024.Idx → Elt F .f32) (M : Memref sig .tc .vmem S128x1024 .f32) :
    owns (c : Thread nD τ) M fullShare (win0_1.fill (grid0.coords t) d1 (iblk m c 1 t))
      ⊢ (iprop(∃ d, owns (c : Thread nD τ) M fullShare
          (win0_1.fill (grid0.coords t) d (win0_1.cut (grid0.coords t) ((dats m 0 c).after 1 t)))) : sProp 𝕄) := by
  rw [after0_1]; unfold pfill; rw [win0_1.cut_fill]
  iintro H; iexists d1; iexact H

/-- The result's buffer holds the stored sum of the two filled blocks: on the moved part that is the sum the proof
    data name, whatever the blocks were filled over. -/
theorem leaf_o (c : Dev nD) (t : Fin cfg0.N) (d0 : S16x128x1024.Idx → Elt F .f32) (d1 : S128x1024.Idx → Elt F .f32)
    (M : Memref sig .tc .vmem S16x128x1024 .f32) :
    owns (c : Thread nD τ) M fullShare (out2 (win0_0.fill (grid0.coords t) d0 (iblk m c 0 t)) (win0_1.fill (grid0.coords t) d1 (iblk m c 1 t)))
      ⊢ (iprop(∃ d, owns (c : Thread nD τ) M fullShare
          (win0_2.fill (grid0.coords t) d (win0_2.cut (grid0.coords t) ((dats m 0 c).after 2 t)))) : sProp 𝕄) := by
  have hs : win0_2.cut (grid0.coords t) (out2 (win0_0.fill (grid0.coords t) d0 (iblk m c 0 t)) (win0_1.fill (grid0.coords t) d1 (iblk m c 1 t)))
      = win0_2.cut (grid0.coords t) ((dats m 0 c).after 2 t) := by
    rw [after0_2, out2_eq]; exact cut_pay m c t _ _ _ _
  iintro H
  iexists out2 (win0_0.fill (grid0.coords t) d0 (iblk m c 0 t)) (win0_1.fill (grid0.coords t) d1 (iblk m c 1 t))
  rw [win0_2.fill_congr_cut (grid0.coords t) hs]
  iexact H

/-- The library's body obligation: each input buffer arrives holding its block filled out with some `d` and leaves
    holding the same; the result's leaves holding the stored sum, which on the part written back is the sum of the
    blocks whatever the `d`s were — all any of the three loose windows' obligations asks. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := F) c Set.univ (grid0.coords t) _ (hstage0_0 ((cfg0.slots t 0).cast nbuf0_0)) _ (hstage0_1 ((cfg0.slots t 1).cast nbuf0_1)) _ (hstage0_2 ((cfg0.slots t 2).cast nbuf0_2))
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iapply (leaf_x m c t d0 _); iexact H0
  isplitl [H1]
  · iapply (leaf_p m c t d1 _); iexact H1
  · iapply (leaf_o m c t d0 d1 _); iexact H2
/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The program runs, faults nowhere and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KIBody.lean ====
/-
  The frame of the idealized kernel program, by hand: the pallas_call adds to each block of the first operand
  x[64, 1025, 1024] the matching rows of the host table pos[1025, 1024], laid along the batch axis. The grid is 4 x 9
  with blocks (16, 128, 1024) of x and of the result and (128, 1024) of pos; 1025 is not a multiple of 128, so at the
  last point of the sequence axis the three transfers are cut to the ONE row that lies inside the arrays, and the
  rest of each staging buffer then holds words nothing names. The body loads both input buffers whole, adds, and
  stores the whole result buffer, the unnamed rows included; the write-back moves only the rows inside the array.
  So the proof data name each buffer only on the part its transfers move: an input buffer holds its block filled out
  with anything, and the stored sum, on the moved part, reads each input only on ITS moved part (entry (a, b, d) reads
  x's buffer at (a, b, d) and pos's at (b, d), and all three windows move the same rows).
-/
import proofs.«169798_j41120016892507_1_alg».proof.Proof.Gen.KernelIdeal.Frame
import proofs.«169798_j41120016892507_1_alg».proof.Proof.Gen.KernelIdeal.Skeleton
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body: two whole loads, the sum with the table block laid along the batch axis, one whole store -/

abbrev r3 : Rect S16x128x1024 := Rect.unit (s := S16x128x1024) ![0, 0, 0] S16x128x1024.size inb_S16x128x1024_S16x128x1024_0_0_0
abbrev r2 : Rect S128x1024 := Rect.unit (s := S128x1024) ![0, 0] S128x1024.size inb_S128x1024_S128x1024_0_0

/-- What the result's staging buffer holds after the body, from what the two input buffers hold. -/
def out2 (x0 : Vec F S16x128x1024 .f32) (x1 : Vec F S128x1024 .f32) : Vec F S16x128x1024 .f32 :=
  View.canon [⟨r3, k0_pay1 (View.ld x0 r3) (View.ld x1 r2)⟩]

theorem cover2 (p0 : Vec F S16x128x1024 .f32) (y : S16x128x1024.Idx) :
    ∃ pc ∈ ([⟨r3, p0⟩] : List (View.Piece (Elt F) S16x128x1024 .f32)), y ∈ pc.1.set :=
  View.cover_of_tiled [⟨r3, p0⟩] S16x128x1024.size (by rfl) y

set_option maxHeartbeats 1000000 in
theorem sound_kernel (c : Dev nD) (E : Set ℕ) (i : grid0.Coords)
    (arg2 : Memref sig .tc .vmem S16x128x1024 .f32) (harg2 : arg2.IsWhole)
    (arg3 : Memref sig .tc .vmem S128x1024 .f32) (harg3 : arg3.IsWhole)
    (arg4 : Memref sig .tc .vmem S16x128x1024 .f32) (harg4 : arg4.IsWhole)
    (x0 : Vec F S16x128x1024 .f32) (x1 : Vec F S128x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc0__add_kernel i arg2 harg2 arg3 harg3 arg4 harg4) K := by
  simp only [cc0__add_kernel_eq_skeleton]; unfold cc0__add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The stored value at an index -/

theorem out2_eq (x0 : Vec F S16x128x1024 .f32) (x1 : Vec F S128x1024 .f32) : out2 x0 x1 = k0_pay1 x0 x1 := by
  have hz3 : (![0, 0, 0] : Fin 3 → Nat) = fun _ => 0 := funext fun a => by fin_cases a <;> rfl
  have hz2 : (![0, 0] : Fin 2 → Nat) = fun _ => 0 := funext fun a => by fin_cases a <;> rfl
  unfold out2
  rw [View.canon_unit_zero hz3]
  simp only [View.ld_unit_zero (S := S16x128x1024) hz3, View.ld_unit_zero (S := S128x1024) hz2]

/-- Entry (a, b, d) of the stored block is the first operand's entry there plus the table block's entry (b, d): the
    table block is laid along the batch axis. -/
theorem pay_apply (x0 : Vec F S16x128x1024 .f32) (x1 : Vec F S128x1024 .f32) (a : Fin 16) (b : Fin 128) (d : Fin 1024) :
    k0_pay1 x0 x1 (ix3 a b d) = FloatOps.addf (x0 (ix3 a b d)) (x1 (ix2 b d)) := by
  unfold k0_pay1
  show FloatOps.addf (x0 (ix3 a b d)) (broadcastTo S16x128x1024 (shapeCast S1x128x1024 (shapeCast S128x1024 x1 _) _) _ (ix3 a b d)) = _
  refine congrArg (FloatOps.addf (x0 (ix3 a b d))) ?_
  refine (broadcastTo_apply _ _ (ix3 a b d) (ix3 (0 : Fin 1) b d) (fun ax => ?_)).trans ?_
  · match ax with
    | ⟨0, _⟩ => rfl
    | ⟨1, _⟩ => rfl
    | ⟨2, _⟩ => rfl
  · refine (shapeCast_ab_1ab_apply _ _ (0 : Fin 1) b d).trans ?_
    rw [shapeCast_self]

/-! ## What the clipped transfers move, decided over the grid -/

/-- At every point the first operand's and the result's transfers move whole batch rows and whole lanes, the table's
    whole lanes; on the sequence axis all three move the same number of rows (128, or one at the array's end). -/
theorem moved_sizes : ∀ t : Fin cfg0.N,
    win0_0.xsize (grid0.coords t) 0 = 16 ∧ win0_0.xsize (grid0.coords t) 2 = 1024
    ∧ win0_1.xsize (grid0.coords t) 1 = 1024 ∧ win0_1.xsize (grid0.coords t) 0 = win0_0.xsize (grid0.coords t) 1
    ∧ (∀ a, win0_2.xsize (grid0.coords t) a = win0_0.xsize (grid0.coords t) a) :=
  (by decide +kernel : ∀ t : Fin grid0.N, _)

theorem fetch0_2 : ∀ t : Fin cfg0.N, (cfg0.win 2).fetch t = false :=
  (by decide +kernel : ∀ t : Fin grid0.N, win0_2.fetch t = false)

/-- On the part a transfer moves, a filled block does not depend on what it was filled over. -/
theorem fill_irrel {G : Pipeline.Grid} {α : Type} (w : Window sig G) (i : G.Coords) (d d' : w.block.Idx → α)
    (g : (w.xblock i).Idx → α) {j : w.block.Idx} (h : w.moved i j = true) : w.fill i d g j = w.fill i d' g j := by
  unfold Window.fill; rw [dif_pos h, dif_pos h]

/-! ## The proof data -/

/-- The first operand's block at point `t`, filled out past the array's end with the zero word; the table's likewise. -/
def xfill (c : Dev nD) (t : Fin cfg0.N) : S16x128x1024.Idx → Elt F .f32 :=
  win0_0.fill (grid0.coords t) (fun _ => Scalar.ofBits .f32 0#32) (iblk m c 0 t)
def pfill (c : Dev nD) (t : Fin cfg0.N) : S128x1024.Idx → Elt F .f32 :=
  win0_1.fill (grid0.coords t) (fun _ => Scalar.ofBits .f32 0#32) (iblk m c 1 t)

/-- The arrays as the region finds them; after the body the two input buffers at their filled blocks and the result's at
    the stored sum of those; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => pfill m c t
    | ⟨2, _⟩ => k0_pay1 (xfill m c t) (pfill m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = pfill m c t := by dsimp only [dats]
theorem after0_2 (c : Dev nD) (t : Fin cfg0.N) : (dats m 0 c).after 2 t = k0_pay1 (xfill m c t) (pfill m c t) := by dsimp only [dats]

/-- What the body finds: the two input buffers just fetched, the block on the part inside the array and `d` elsewhere; -/
theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]
/-- the result's buffer at contents nothing names (it was written back at the point before). -/
theorem before_2 (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The body obligation -/

/-- The stored block at any index of the staging shape. -/
theorem pay_apply' (x0 : Vec F S16x128x1024 .f32) (x1 : Vec F S128x1024 .f32) (J : S16x128x1024.Idx) :
    k0_pay1 x0 x1 J = FloatOps.addf (x0 J) (x1 (@ix2 128 1024 (J 1) (J 2))) := by
  rw [eq_ix3 J]; exact pay_apply x0 x1 (J 0) (J 1) (J 2)

/-- The stored sum at an index whose coordinates all lie on the part the first operand's transfer moves reads both
    input buffers on the parts their fetches filled: it does not depend on what they were filled over. -/
theorem pay_irrel (c : Dev nD) (t : Fin cfg0.N) (d0 d0' : S16x128x1024.Idx → Elt F .f32) (d1 d1' : S128x1024.Idx → Elt F .f32)
    (J : S16x128x1024.Idx) (hJ : ∀ a, (J a).val < win0_0.xsize (grid0.coords t) a) :
    k0_pay1 (win0_0.fill (grid0.coords t) d0 (iblk m c 0 t)) (win0_1.fill (grid0.coords t) d1 (iblk m c 1 t)) J
      = k0_pay1 (win0_0.fill (grid0.coords t) d0' (iblk m c 0 t)) (win0_1.fill (grid0.coords t) d1' (iblk m c 1 t)) J := by
  obtain ⟨h00, h02, h11, h10, h2⟩ := moved_sizes t
  rw [pay_apply', pay_apply']
  have m0 : win0_0.moved (grid0.coords t) J = true := (win0_0.moved_iff (grid0.coords t) J).mpr hJ
  have m1 : win0_1.moved (grid0.coords t) (@ix2 128 1024 (J 1) (J 2)) = true := by
    refine (win0_1.moved_iff (grid0.coords t) _).mpr fun a => ?_
    match a with
    | ⟨0, h⟩ => exact lt_of_lt_of_eq (hJ 1) h10.symm
    | ⟨1, h⟩ => exact lt_of_lt_of_eq (hJ 2) (h02.trans h11.symm)
  rw [fill_irrel win0_0 _ d0 d0' _ m0, fill_irrel win0_1 _ d1 d1' _ m1]

theorem cut_pay (c : Dev nD) (t : Fin cfg0.N) (d0 d0' : S16x128x1024.Idx → Elt F .f32) (d1 d1' : S128x1024.Idx → Elt F .f32) :
    win0_2.cut (grid0.coords t)
        (k0_pay1 (win0_0.fill (grid0.coords t) d0 (iblk m c 0 t)) (win0_1.fill (grid0.coords t) d1 (iblk m c 1 t)))
      = win0_2.cut (grid0.coords t)
        (k0_pay1 (win0_0.fill (grid0.coords t) d0' (iblk m c 0 t)) (win0_1.fill (grid0.coords t) d1' (iblk m c 1 t))) := by
  funext j
  exact pay_irrel m c t d0 d0' d1 d1' (win0_2.xinj (grid0.coords t) j)
    (fun a => lt_of_lt_of_eq (j a).isLt ((moved_sizes t).2.2.2.2 a))

/-- An input buffer that holds its block filled out with `d0` holds what the obligation asks of a loose window: the
    block on the moved part. -/
theorem leaf_x (c : Dev nD) (t : Fin cfg0.N) (d0 : S16x128x1024.Idx → Elt F .f32) (M : Memref sig .tc .vmem S16x128x1024 .f32) :
    owns (c : Thread nD τ) M fullShare (win0_0.fill (grid0.coords t) d0 (iblk m c 0 t))
      ⊢ (iprop(∃ d, owns (c : Thread nD τ) M fullShare
          (win0_0.fill (grid0.coords t) d (win0_0.cut (grid0.coords t) ((dats m 0 c).after 0 t)))) : sProp 𝕄) := by
  rw [after0_0]; unfold xfill; rw [win0_0.cut_fill]
  iintro H; iexists d0; iexact H

theorem leaf_p (c : Dev nD) (t : Fin cfg0.N) (d1 : S128x1024.Idx → Elt F .f32) (M : Memref sig .tc .vmem S128x1024 .f32) :
    owns (c : Thread nD τ) M fullShare (win0_1.fill (grid0.coords t) d1 (iblk m c 1 t))
      ⊢ (iprop(∃ d, owns (c : Thread nD τ) M fullShare
          (win0_1.fill (grid0.coords t) d (win0_1.cut (grid0.coords t) ((dats m 0 c).after 1 t)))) : sProp 𝕄) := by
  rw [after0_1]; unfold pfill; rw [win0_1.cut_fill]
  iintro H; iexists d1; iexact H

/-- The result's buffer holds the stored sum of the two filled blocks: on the moved part that is the sum the proof
    data name, whatever the blocks were filled over. -/
theorem leaf_o (c : Dev nD) (t : Fin cfg0.N) (d0 : S16x128x1024.Idx → Elt F .f32) (d1 : S128x1024.Idx → Elt F .f32)
    (M : Memref sig .tc .vmem S16x128x1024 .f32) :
    owns (c : Thread nD τ) M fullShare (out2 (win0_0.fill (grid0.coords t) d0 (iblk m c 0 t)) (win0_1.fill (grid0.coords t) d1 (iblk m c 1 t)))
      ⊢ (iprop(∃ d, owns (c : Thread nD τ) M fullShare
          (win0_2.fill (grid0.coords t) d (win0_2.cut (grid0.coords t) ((dats m 0 c).after 2 t)))) : sProp 𝕄) := by
  have hs : win0_2.cut (grid0.coords t) (out2 (win0_0.fill (grid0.coords t) d0 (iblk m c 0 t)) (win0_1.fill (grid0.coords t) d1 (iblk m c 1 t)))
      = win0_2.cut (grid0.coords t) ((dats m 0 c).after 2 t) := by
    rw [after0_2, out2_eq]; exact cut_pay m c t _ _ _ _
  iintro H
  iexists out2 (win0_0.fill (grid0.coords t) d0 (iblk m c 0 t)) (win0_1.fill (grid0.coords t) d1 (iblk m c 1 t))
  rw [win0_2.fill_congr_cut (grid0.coords t) hs]
  iexact H

/-- The library's body obligation: each input buffer arrives holding its block filled out with some `d` and leaves
    holding the same; the result's leaves holding the stored sum, which on the part written back is the sum of the
    blocks whatever the `d`s were — all any of the three loose windows' obligations asks. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := F) c Set.univ (grid0.coords t) _ (hstage0_0 ((cfg0.slots t 0).cast nbuf0_0)) _ (hstage0_1 ((cfg0.slots t 1).cast nbuf0_1)) _ (hstage0_2 ((cfg0.slots t 2).cast nbuf0_2))
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iapply (leaf_x m c t d0 _); iexact H0
  isplitl [H1]
  · iapply (leaf_p m c t d1 _); iexact H1
  · iapply (leaf_o m c t d0 d1 _); iexact H2
/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The program runs, faults nowhere and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KIValue.lean ====
/-
  From the blocks the pallas_call writes back to the whole result array. At point (i0, i1) of the 4 x 9 grid the
  write-back moves the part of the result's staging buffer that lies inside the array: 16 batch rows, 128 sequence rows
  (ONE at i1 = 8, since 1025 = 8 * 128 + 1) and all 1024 lanes. Entry (j0, j1, j2) of that part is the stored sum there,
  which reads the first operand's buffer at (j0, j1, j2) and the table's at (j1, j2), both on the parts their own fetches
  filled: x(16 i0 + j0, 128 i1 + j1, j2) + pos(128 i1 + j1, j2). So each point writes back its block of
  `addRows x pos`; batch row b lies in block b / 16, sequence row s in block s / 128, every lane in the one block, so the
  blocks cover the array and it ends holding `addRows x pos`.
-/
import proofs.«169798_j41120016892507_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

variable (m : (ℓ : Loc nD τ sig) → Buf (Elt F) ℓ) (ρ : Dev nD → PrngReg)

/-- x with the table's row (s, ·) added to every batch's row s. -/
def addRows (x : S64x1025x1024.Idx → Elt F .f32) (p : S1025x1024.Idx → Elt F .f32) : S64x1025x1024.Idx → Elt F .f32 :=
  fun i => FloatOps.addf (x i) (p (@ix2 1025 1024 (i 1) (i 2)))

/-! ## The three windows move together, decided over the grid -/

/-- At every point the first operand's block index is the result's on every axis; the table's block index on its row
    axis is the result's on the sequence axis; and the lane axis is never split (block index 0). -/
theorem index_facts : ∀ t : Fin cfg0.N,
    win0_0.index t 0 = win0_2.index t 0 ∧ win0_0.index t 1 = win0_2.index t 1 ∧ win0_0.index t 2 = win0_2.index t 2
    ∧ win0_1.index t 0 = win0_2.index t 1 ∧ win0_1.index t 1 = 0 ∧ win0_2.index t 2 = 0 :=
  (by decide +kernel : ∀ t : Fin grid0.N, _)

/-- A filled block at an index of its moved part is the block there. -/
theorem fill_apply_of_lt {G : Pipeline.Grid} {α : Type} (w : Window sig G) (i : G.Coords) (d : w.block.Idx → α)
    (g : (w.xblock i).Idx → α) (j : w.block.Idx) (h : ∀ a, (j a).val < w.xsize i a) :
    w.fill i d g j = g (fun a => ⟨(j a).val, h a⟩) := by
  unfold Window.fill; rw [dif_pos ((w.moved_iff i j).mpr h)]

/-! ## What one point writes back -/

/-- Point `t` writes back the block at `t` of x with the table's rows added: entry (j0, j1, j2) of the moved part is
    x's entry at the block's place in the array plus the table's entry at the same row and lane. -/
theorem flushed_eq (c : Dev nD) (t : Fin cfg0.N) :
    (dats m 0 c).flushed 2 t = ((cfg0.win 2).blk t).view.read (Elt F) (addRows (V m c main_arg0) (V m c main_v23)) := by
  funext j
  show k0_pay1 (xfill m c t) (pfill m c t) (win0_2.xinj (grid0.coords t) j)
    = addRows (V m c main_arg0) (V m c main_v23) (((cfg0.win 2).blk t).view.emb j)
  obtain ⟨s0, s2, p1, p0, s⟩ := moved_sizes t
  obtain ⟨e00, e01, e02, e10, e11, e22⟩ := index_facts t
  have hj : ∀ ax, (j ax).val < win0_0.xsize (grid0.coords t) ax := fun ax => by
    have h : (j ax).val < win0_2.xsize (grid0.coords t) ax := (j ax).isLt
    rw [s ax] at h; exact h
  have hj0 : (j 0).val < 16 := by have h := hj 0; rw [s0] at h; exact h
  have hj1 : (j 1).val < 128 := Nat.lt_of_lt_of_le (j 1).isLt (win0_2.xsize_le (grid0.coords t) 1)
  have hj2 : (j 2).val < 1024 := by have h := hj 2; rw [s2] at h; exact h
  have hx : win0_2.xinj (grid0.coords t) j = ix3 (⟨(j 0).val, hj0⟩ : Fin 16) (⟨(j 1).val, hj1⟩ : Fin 128) (⟨(j 2).val, hj2⟩ : Fin 1024) := by
    funext ax
    match ax with
    | ⟨0, _⟩ => rfl
    | ⟨1, _⟩ => rfl
    | ⟨2, _⟩ => rfl
  refine (congrArg (k0_pay1 (xfill m c t) (pfill m c t)) hx).trans ((pay_apply _ _ _ _ _).trans ?_)
  have hlt0 : ∀ ax, ((ix3 (⟨(j 0).val, hj0⟩ : Fin 16) (⟨(j 1).val, hj1⟩ : Fin 128) (⟨(j 2).val, hj2⟩ : Fin 1024) : S16x128x1024.Idx) ax).val
      < win0_0.xsize (grid0.coords t) ax := fun ax => by
    match ax with
    | ⟨0, _⟩ => exact hj 0
    | ⟨1, _⟩ => exact hj 1
    | ⟨2, _⟩ => exact hj 2
  have hlt1 : ∀ ax, ((ix2 (⟨(j 1).val, hj1⟩ : Fin 128) (⟨(j 2).val, hj2⟩ : Fin 1024) : S128x1024.Idx) ax).val
      < win0_1.xsize (grid0.coords t) ax := fun ax => by
    match ax with
    | ⟨0, _⟩ => have h := hj 1; rw [← p0] at h; exact h
    | ⟨1, _⟩ => have h := hj2; rw [← p1] at h; exact h
  -- the first operand's filled block, on its moved part, is x at the block's place in the array
  have hX : xfill m c t (ix3 (⟨(j 0).val, hj0⟩ : Fin 16) (⟨(j 1).val, hj1⟩ : Fin 128) (⟨(j 2).val, hj2⟩ : Fin 1024))
      = V m c main_arg0 (((cfg0.win 2).blk t).view.emb j) := by
    refine (fill_apply_of_lt win0_0 (grid0.coords t) _ (iblk m c 0 t) _ hlt0).trans ?_
    show V m c main_arg0 (((cfg0.win 0).blk t).view.emb _) = V m c main_arg0 (((cfg0.win 2).blk t).view.emb j)
    refine congrArg (V m c main_arg0) ?_
    funext ax; apply Fin.ext
    match ax with
    | ⟨0, _⟩ => show win0_0.index t 0 * 16 + 1 * (j 0).val = win0_2.index t 0 * 16 + 1 * (j 0).val; rw [e00]
    | ⟨1, _⟩ => show win0_0.index t 1 * 128 + 1 * (j 1).val = win0_2.index t 1 * 128 + 1 * (j 1).val; rw [e01]
    | ⟨2, _⟩ => show win0_0.index t 2 * 1024 + 1 * (j 2).val = win0_2.index t 2 * 1024 + 1 * (j 2).val; rw [e02]
  -- the table's filled block, on its moved part, is the table at the same row of the array and the same lane
  have hP : pfill m c t (ix2 (⟨(j 1).val, hj1⟩ : Fin 128) (⟨(j 2).val, hj2⟩ : Fin 1024))
      = V m c main_v23 (@ix2 1025 1024 ((((cfg0.win 2).blk t).view.emb j) 1) ((((cfg0.win 2).blk t).view.emb j) 2)) := by
    refine (fill_apply_of_lt win0_1 (grid0.coords t) _ (iblk m c 1 t) _ hlt1).trans ?_
    show V m c main_v23 (((cfg0.win 1).blk t).view.emb _) = V m c main_v23 _
    refine congrArg (V m c main_v23) ?_
    funext ax; apply Fin.ext
    match ax with
    | ⟨0, _⟩ => show win0_1.index t 0 * 128 + 1 * (j 1).val = win0_2.index t 1 * 128 + 1 * (j 1).val; rw [e10]
    | ⟨1, _⟩ => show win0_1.index t 1 * 1024 + 1 * (j 2).val = win0_2.index t 2 * 1024 + 1 * (j 2).val; rw [e11, e22]
  show FloatOps.addf _ _ = FloatOps.addf (V m c main_arg0 (((cfg0.win 2).blk t).view.emb j))
    (V m c main_v23 (@ix2 1025 1024 ((((cfg0.win 2).blk t).view.emb j) 1) ((((cfg0.win 2).blk t).view.emb j) 2)))
  rw [hX, hP]

/-! ## The blocks cover the array -/

/-- An index of the array is in point `t`'s block iff each coordinate is in the block's range on its axis, the range
    cut at the array's end. -/
theorem mem_blk (t : Fin cfg0.N) (i : S64x1025x1024.Idx) :
    i ∈ ((cfg0.win 2).blk t).view.set ↔ ∀ a : Fin 3, win0_2.index t a * S16x128x1024.size a ≤ (i a).val
      ∧ (i a).val < win0_2.index t a * S16x128x1024.size a + win0_2.xsize (grid0.coords t) a := by
  show i ∈ ((View.whole main_v24).slice (win0_2.rect t)).set ↔ _
  rw [View.set_slice_whole, Rect.mem_set_unit]
  exact Iff.rfl

/-- Every block (q0, q1) of the 4 x 9 blocks is some point's, and the write-back there moves 16 batch rows, the
    sequence rows of block q1 that lie below 1025, and all the lanes. -/
theorem point_of_block : ∀ (q0 : Fin 4) (q1 : Fin 9), ∃ t : Fin cfg0.N,
    win0_2.index t 0 = q0.val ∧ win0_2.index t 1 = q1.val ∧ win0_2.index t 2 = 0
    ∧ win0_2.xsize (grid0.coords t) 0 = 16 ∧ win0_2.xsize (grid0.coords t) 1 = min 128 (1025 - q1.val * 128)
    ∧ win0_2.xsize (grid0.coords t) 2 = 1024 :=
  (by decide +kernel : ∀ (q0 : Fin 4) (q1 : Fin 9), ∃ t : Fin grid0.N,
    win0_2.index t 0 = q0.val ∧ win0_2.index t 1 = q1.val ∧ win0_2.index t 2 = 0
    ∧ win0_2.xsize (grid0.coords t) 0 = 16 ∧ win0_2.xsize (grid0.coords t) 1 = min 128 (1025 - q1.val * 128)
    ∧ win0_2.xsize (grid0.coords t) 2 = 1024)

/-- Batch row b lies in block b / 16, sequence row s in block s / 128 (the ninth block holds row 1024 alone), every
    lane in the one block. -/
theorem cover (i : S64x1025x1024.Idx) : ∃ t : Fin cfg0.N, (cfg0.win 2).flush t = true ∧ i ∈ ((cfg0.win 2).blk t).view.set := by
  have hi0 : (i 0).val < 64 := (i 0).isLt
  have hi1 : (i 1).val < 1025 := (i 1).isLt
  have hi2 : (i 2).val < 1024 := (i 2).isLt
  obtain ⟨t, q0, q1, q2, z0, z1, z2⟩ := point_of_block ⟨(i 0).val / 16, by omega⟩ ⟨(i 1).val / 128, by omega⟩
  have q0' : win0_2.index t 0 = (i 0).val / 16 := q0
  have q1' : win0_2.index t 1 = (i 1).val / 128 := q1
  have z1' : win0_2.xsize (grid0.coords t) 1 = min 128 (1025 - (i 1).val / 128 * 128) := z1
  refine ⟨t, flush0_2 t, ?_⟩
  rw [mem_blk]
  intro a
  match a with
  | ⟨0, _⟩ =>
    show win0_2.index t 0 * 16 ≤ (i 0).val ∧ (i 0).val < win0_2.index t 0 * 16 + win0_2.xsize (grid0.coords t) 0
    rw [q0', z0]; omega
  | ⟨1, _⟩ =>
    show win0_2.index t 1 * 128 ≤ (i 1).val ∧ (i 1).val < win0_2.index t 1 * 128 + win0_2.xsize (grid0.coords t) 1
    rw [q1', z1']; omega
  | ⟨2, _⟩ =>
    show win0_2.index t 2 * 1024 ≤ (i 2).val ∧ (i 2).val < win0_2.index t 2 * 1024 + win0_2.xsize (grid0.coords t) 2
    rw [q2, z2]; omega

/-! ## The result array after the run -/

/-- The result array ends holding x with the table's rows added. -/
theorem final (c : Dev nD) : (dats m 0 c).arrAt 2 cfg0.N = addRows (V m c main_arg0) (V m c main_v23) :=
  (dats m 0 c).arrAt_eq_of_cover 2 (addRows (V m c main_arg0) (V m c main_v23)) (fun t _ => flushed_eq m c t) cover

/-- The run with the result array named. -/
theorem run_value : θ_run defs (onTc (τ := τ) (main (F := F))) ⟨m, fun _ => 0, ρ⟩ (fun r => ∀ c : Dev nD,
      r.2.mem ((c.tc : Thread nD τ).loc main_v24) = addRows (m ((c.tc : Thread nD τ).loc main_arg0)) (V m c main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 2).trans ((final m c).trans (congrArg (fun x => addRows x (V m c main_v23)) (V_main_arg0 m c))),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Hand

end
-- ==== Proof.KIPos.lean ====
import proofs.«169798_j41120016892507_1_alg».proof.Proof.Gen.KernelIdeal.Frame
import Idealize.ShloMosaic.Lib.StableHlo.Run

/-!
# The positional table the region reads

The second operand of the region is the array `main_v23` of shape `[1025, 1024]`, written before the
region by the 33 host operations of `@main`. Here that array is named as a function of the two small
arguments (the learned rows `[1, 528, 1024]` and the quarter row `[1, 1, 256]`):

* rows `1 … 1024` — the learned rows cut into four quarters of 256 (`[528, 4, 256]`), a first gather that
  picks for each of the 1024 positions one learned row through the first constant index table, a second
  gather that picks for each (position, quarter) the row and the quarter the two other tables name, and the
  result laid out again as `[1024, 1024]`;
* row `0` — the quarter row repeated four times (`[1, 1, 4, 256]` laid out as `[1, 1024]`);
* the table is the first on top of the second.

Every index table enters through the printed wrap-around `select (i < 0) (i + n) i` whose mask is the
constant `false`; it is kept as printed.
-/

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]

/-- The positional table `[1025, 1024]` as a function of the two small arguments: the composed term of
    `@main`'s 33 host operations, in their order, every constant as printed. -/
def posK (a1 : S1x528x1024.Idx → Elt F .f32) (a2 : S1x1x256.Idx → Elt F .f32) : S1025x1024.Idx → Elt F .f32 :=
  -- the three constant index tables, each with its all-false mask
  let c : (⟨S1024, .i32⟩ : BufTy).Contents (Elt F) := fun i => lit0 (S1024.rowMajor i)
  let c_0 : (⟨S1024, .i1⟩ : BufTy).Contents (Elt F) := constantI S1024 1 0#1
  let c_1 : (⟨S1024x1, .i32⟩ : BufTy).Contents (Elt F) := fun i => lit1 (S1024x1.rowMajor i)
  let c_2 : (⟨S1024x1, .i1⟩ : BufTy).Contents (Elt F) := constantI S1024x1 1 0#1
  let c_3 : (⟨S1024x4, .i32⟩ : BufTy).Contents (Elt F) := fun i => lit2 (S1024x4.rowMajor i)
  let c_4 : (⟨S1024x4, .i1⟩ : BufTy).Contents (Elt F) := constantI S1024x4 1 0#1
  -- the learned rows as [528, 1024], then each row as four quarters of 256
  let v0 : (⟨S528x1024, .f32⟩ : BufTy).Contents (Elt F) := shapeCast S528x1024 a1 shapeCasts_S1x528x1024_S528x1024
  let v1 : (⟨S528x4x256, .f32⟩ : BufTy).Contents (Elt F) := shapeCast S528x4x256 v0 shapeCasts_S528x1024_S528x4x256
  -- the first table, wrapped around 528, as a column of 1024 row numbers
  let c_5 : (⟨S_, .i32⟩ : BufTy).Contents (Elt F) := constantI S_ 32 528#32
  let v2 : (⟨S1024, .i32⟩ : BufTy).Contents (Elt F) := broadcastInDim S1024 ![] bcast_S_S1024 c_5
  let v3 : (⟨S1024, .i32⟩ : BufTy).Contents (Elt F) := addi c v2
  let v4 : (⟨S1024, .i32⟩ : BufTy).Contents (Elt F) := select c_0 v3 c
  let v5 : (⟨S1024x1, .i32⟩ : BufTy).Contents (Elt F) := broadcastInDim S1024x1 ![0] bcast_S1024_S1024x1_0 v4
  -- position p takes the learned row the first table names: [1024, 4, 256]
  let v6 : (⟨S1024x4x256, .f32⟩ : BufTy).Contents (Elt F) :=
    Host.gather gather_S528x4x256_S1024x1_S1024x4x256_12_0_n_n_0_1_14256 v1 v5
  -- the second table, wrapped around 1024
  let c_6 : (⟨S_, .i32⟩ : BufTy).Contents (Elt F) := constantI S_ 32 1024#32
  let v7 : (⟨S1024x1, .i32⟩ : BufTy).Contents (Elt F) := broadcastInDim S1024x1 ![] bcast_S_S1024x1 c_6
  let v8 : (⟨S1024x1, .i32⟩ : BufTy).Contents (Elt F) := addi c_1 v7
  let v9 : (⟨S1024x1, .i32⟩ : BufTy).Contents (Elt F) := select c_2 v8 c_1
  -- the third table, wrapped around 4
  let c_7 : (⟨S_, .i32⟩ : BufTy).Contents (Elt F) := constantI S_ 32 4#32
  let v10 : (⟨S1024x4, .i32⟩ : BufTy).Contents (Elt F) := broadcastInDim S1024x4 ![] bcast_S_S1024x4 c_7
  let v11 : (⟨S1024x4, .i32⟩ : BufTy).Contents (Elt F) := addi c_3 v10
  let v12 : (⟨S1024x4, .i32⟩ : BufTy).Contents (Elt F) := select c_4 v11 c_3
  -- for each (position, quarter) the pair (row, quarter) to read
  let v13 : (⟨S1024x4, .i32⟩ : BufTy).Contents (Elt F) := broadcastInDim S1024x4 ![0, 1] bcast_S1024x1_S1024x4_0_1 v9
  let v14 : (⟨S1024x4x1, .i32⟩ : BufTy).Contents (Elt F) := broadcastInDim S1024x4x1 ![0, 1] bcast_S1024x4_S1024x4x1_0_1 v13
  let v15 : (⟨S1024x4x1, .i32⟩ : BufTy).Contents (Elt F) := broadcastInDim S1024x4x1 ![0, 1] bcast_S1024x4_S1024x4x1_0_1 v12
  let v16 : (⟨S1024x4x2, .i32⟩ : BufTy).Contents (Elt F) :=
    concatenate S1024x4x2 2 [⟨S1024x4x1, v14⟩, ⟨S1024x4x1, v15⟩] concatenates_S1024x4x1_S1024x4x1_S1024x4x2_d2
  -- the second gather, and its result as [1024, 1024]
  let v17 : (⟨S1024x4x256, .f32⟩ : BufTy).Contents (Elt F) :=
    Host.gather gather_S1024x4x256_S1024x4x2_S1024x4x256_2_01_n_n_01_2_11256 v6 v16
  let v18 : (⟨S1024x1024, .f32⟩ : BufTy).Contents (Elt F) := shapeCast S1024x1024 v17 shapeCasts_S1024x4x256_S1024x1024
  -- the quarter row four times: row 0
  let v19 : (⟨S1x256, .f32⟩ : BufTy).Contents (Elt F) := shapeCast S1x256 a2 shapeCasts_S1x1x256_S1x256
  let v20 : (⟨S1x1x1x256, .f32⟩ : BufTy).Contents (Elt F) := shapeCast S1x1x1x256 v19 shapeCasts_S1x256_S1x1x1x256
  let v21 : (⟨S1x1x4x256, .f32⟩ : BufTy).Contents (Elt F) :=
    broadcastInDim S1x1x4x256 ![0, 1, 2, 3] bcast_S1x1x1x256_S1x1x4x256_0_1_2_3 v20
  let v22 : (⟨S1x1024, .f32⟩ : BufTy).Contents (Elt F) := shapeCast S1x1024 v21 shapeCasts_S1x1x4x256_S1x1024
  -- row 0 on top of rows 1 … 1024
  concatenate S1025x1024 0 [⟨S1x1024, v22⟩, ⟨S1024x1024, v18⟩] concatenates_S1x1024_S1024x1024_S1025x1024_d0

/-- What the region finds in its second operand: the table `posK` of the two small arguments as launched
    (the 33 host operations folded over the launch contents, each result read at its own array; the fold is
    cut after the 25th operation, the last before the first concatenate). -/
theorem V_main_v23 (m : (ℓ : Loc nD τ sig) → Buf (Elt F) ℓ) (c : Dev nD) :
    (Gen.V m c main_v23 : S1025x1024.Idx → Elt F .f32)
      = posK (m ((c.tc : Thread nD τ).loc main_arg1)) (m ((c.tc : Thread nD τ).loc main_arg2)) := by
  dsimp only [Gen.V]
  rw [← List.take_append_drop 25 (Gen.hostOps0 (F := F)), StableHlo.after_append]
  -- the last eight operations, over whatever the first 25 left
  generalize hW : StableHlo.after (List.take 25 (Gen.hostOps0 (F := F))) (fun b => m (c, b)) = W
  simp only [Gen.hostOps0, List.drop_succ_cons, List.drop_zero]
  after_results
  -- the first 25: no concatenate among them
  subst hW
  simp only [Gen.hostOps0, List.take_succ_cons, List.take_zero]
  after_results_simp
  rfl

end Cert.KernelIdeal.Hand

end
-- ==== Proof.RefRun.lean ====
import proofs.«169798_j41120016892507_1_alg».proof.Proof.Gen.ReferenceIdeal
import Idealize.ShloMosaic.Lib.StableHlo.Run
import Idealize.ShloMosaic.Lib.Pipeline.Value
import Idealize.ShloMosaic.Lib.ValueIdx

/-!
The reference program's run, read back as a pure term.

The reference's `@main` is a straight line of 36 host operations. The first 33 build the positional
table `pos[1025,1024]` from the two small arguments (row 0 is the quarter-row tiled four times; rows
1..1024 are two gathers of the learned rows through constant index tables); the last three broadcast
that table along the batch axis and add it to `x`. This module lists the operations, names the
composed term of the first 33 as `posR`, and states what every fair execution ends with: the result
buffer at `x + broadcast (posR …)`, the arguments unchanged. Read at an index, entry `(b, s, d)` of the
result is `x(b, s, d) + pos(s, d)`.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- `@main`'s 36 operations, in order. -/
abbrev ops : List (HloOp τ sig (Elt F)) :=
  [
    nullary main_c (fun i => lit0 (S1024.rowMajor i)),
    nullary main_c_0 (constantI S1024 1 0#1),
    nullary main_c_1 (fun i => lit1 (S1024x1.rowMajor i)),
    nullary main_c_2 (constantI S1024x1 1 0#1),
    nullary main_c_3 (fun i => lit2 (S1024x4.rowMajor i)),
    nullary main_c_4 (constantI S1024x4 1 0#1),
    reshape main_arg1 main_v0 rfl shapeCasts_S1x528x1024_S528x1024,
    reshape main_v0 main_v1 rfl shapeCasts_S528x1024_S528x4x256,
    nullary main_c_5 (constantI S_ 32 528#32),
    unary main_c_5 main_v2 (broadcastInDim S1024 ![] bcast_S_S1024 : (⟨S_, .i32⟩ : BufTy).Contents (Elt F) → (⟨S1024, .i32⟩ : BufTy).Contents (Elt F)),
    binary main_c main_v2 main_v3 (addi : (⟨S1024, .i32⟩ : BufTy).Contents (Elt F) → (⟨S1024, .i32⟩ : BufTy).Contents (Elt F) → (⟨S1024, .i32⟩ : BufTy).Contents (Elt F)),
    ternary main_c_0 main_v3 main_c main_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v4 main_v5 (broadcastInDim S1024x1 ![0] bcast_S1024_S1024x1_0 : (⟨S1024, .i32⟩ : BufTy).Contents (Elt F) → (⟨S1024x1, .i32⟩ : BufTy).Contents (Elt F)),
    binary main_v1 main_v5 main_v6 ((fun x i => Host.gather gather_S528x4x256_S1024x1_S1024x4x256_12_0_n_n_0_1_14256 x i) : (⟨S528x4x256, .f32⟩ : BufTy).Contents (Elt F) → (⟨S1024x1, .i32⟩ : BufTy).Contents (Elt F) → (⟨S1024x4x256, .f32⟩ : BufTy).Contents (Elt F)),
    nullary main_c_6 (constantI S_ 32 1024#32),
    unary main_c_6 main_v7 (broadcastInDim S1024x1 ![] bcast_S_S1024x1 : (⟨S_, .i32⟩ : BufTy).Contents (Elt F) → (⟨S1024x1, .i32⟩ : BufTy).Contents (Elt F)),
    binary main_c_1 main_v7 main_v8 (addi : (⟨S1024x1, .i32⟩ : BufTy).Contents (Elt F) → (⟨S1024x1, .i32⟩ : BufTy).Contents (Elt F) → (⟨S1024x1, .i32⟩ : BufTy).Contents (Elt F)),
    ternary main_c_2 main_v8 main_c_1 main_v9 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    nullary main_c_7 (constantI S_ 32 4#32),
    unary main_c_7 main_v10 (broadcastInDim S1024x4 ![] bcast_S_S1024x4 : (⟨S_, .i32⟩ : BufTy).Contents (Elt F) → (⟨S1024x4, .i32⟩ : BufTy).Contents (Elt F)),
    binary main_c_3 main_v10 main_v11 (addi : (⟨S1024x4, .i32⟩ : BufTy).Contents (Elt F) → (⟨S1024x4, .i32⟩ : BufTy).Contents (Elt F) → (⟨S1024x4, .i32⟩ : BufTy).Contents (Elt F)),
    ternary main_c_4 main_v11 main_c_3 main_v12 (select : (⟨S1024x4, .i1⟩ : BufTy).Contents (Elt F) → (⟨S1024x4, .i32⟩ : BufTy).Contents (Elt F) → (⟨S1024x4, .i32⟩ : BufTy).Contents (Elt F) → (⟨S1024x4, .i32⟩ : BufTy).Contents (Elt F)),
    unary main_v9 main_v13 (broadcastInDim S1024x4 ![0, 1] bcast_S1024x1_S1024x4_0_1 : (⟨S1024x1, .i32⟩ : BufTy).Contents (Elt F) → (⟨S1024x4, .i32⟩ : BufTy).Contents (Elt F)),
    unary main_v13 main_v14 (broadcastInDim S1024x4x1 ![0, 1] bcast_S1024x4_S1024x4x1_0_1 : (⟨S1024x4, .i32⟩ : BufTy).Contents (Elt F) → (⟨S1024x4x1, .i32⟩ : BufTy).Contents (Elt F)),
    unary main_v12 main_v15 (broadcastInDim S1024x4x1 ![0, 1] bcast_S1024x4_S1024x4x1_0_1 : (⟨S1024x4, .i32⟩ : BufTy).Contents (Elt F) → (⟨S1024x4x1, .i32⟩ : BufTy).Contents (Elt F)),
    binary main_v14 main_v15 main_v16 ((fun a b => concatenate S1024x4x2 2 [⟨S1024x4x1, a⟩, ⟨S1024x4x1, b⟩] concatenates_S1024x4x1_S1024x4x1_S1024x4x2_d2) : (⟨S1024x4x1, .i32⟩ : BufTy).Contents (Elt F) → (⟨S1024x4x1, .i32⟩ : BufTy).Contents (Elt F) → (⟨S1024x4x2, .i32⟩ : BufTy).Contents (Elt F)),
    binary main_v6 main_v16 main_v17 ((fun x i => Host.gather gather_S1024x4x256_S1024x4x2_S1024x4x256_2_01_n_n_01_2_11256 x i) : (⟨S1024x4x256, .f32⟩ : BufTy).Contents (Elt F) → (⟨S1024x4x2, .i32⟩ : BufTy).Contents (Elt F) → (⟨S1024x4x256, .f32⟩ : BufTy).Contents (Elt F)),
    reshape main_v17 main_v18 rfl shapeCasts_S1024x4x256_S1024x1024,
    reshape main_arg2 main_v19 rfl shapeCasts_S1x1x256_S1x256,
    reshape main_v19 main_v20 rfl shapeCasts_S1x256_S1x1x1x256,
    unary main_v20 main_v21 (broadcastInDim S1x1x4x256 ![0, 1, 2, 3] bcast_S1x1x1x256_S1x1x4x256_0_1_2_3 : (⟨S1x1x1x256, .f32⟩ : BufTy).Contents (Elt F) → (⟨S1x1x4x256, .f32⟩ : BufTy).Contents (Elt F)),
    reshape main_v21 main_v22 rfl shapeCasts_S1x1x4x256_S1x1024,
    binary main_v22 main_v18 main_v23 ((fun a b => concatenate S1025x1024 0 [⟨S1x1024, a⟩, ⟨S1024x1024, b⟩] concatenates_S1x1024_S1024x1024_S1025x1024_d0) : (⟨S1x1024, .f32⟩ : BufTy).Contents (Elt F) → (⟨S1024x1024, .f32⟩ : BufTy).Contents (Elt F) → (⟨S1025x1024, .f32⟩ : BufTy).Contents (Elt F)),
    unary main_v23 main_v24 (broadcastInDim S1x1025x1024 ![1, 2] bcast_S1025x1024_S1x1025x1024_1_2 : (⟨S1025x1024, .f32⟩ : BufTy).Contents (Elt F) → (⟨S1x1025x1024, .f32⟩ : BufTy).Contents (Elt F)),
    unary main_v24 main_v25 (broadcastInDim S64x1025x1024 ![0, 1, 2] bcast_S1x1025x1024_S64x1025x1024_0_1_2 : (⟨S1x1025x1024, .f32⟩ : BufTy).Contents (Elt F) → (⟨S64x1025x1024, .f32⟩ : BufTy).Contents (Elt F)),
    binary main_arg0 main_v25 main_v26 (addf : (⟨S64x1025x1024, .f32⟩ : BufTy).Contents (Elt F) → (⟨S64x1025x1024, .f32⟩ : BufTy).Contents (Elt F) → (⟨S64x1025x1024, .f32⟩ : BufTy).Contents (Elt F)) ]

theorem main_eq (c : Dev nD) : main (F := F) c = seq ops := rfl

/-- The positional table [1025,1024] as a function of the two small arguments: the composed term of the
    first 33 operations. Row 0 is the quarter-row `a2` broadcast to four copies and flattened; rows
    1..1024 are the learned rows `a1`, split into four quarters, gathered first along the row axis by the
    first index table and then along (row, quarter) by the pair of the second and third tables. Each
    index table passes through the `select (false) (table + size) table` wrapper that index
    normalisation emits, which always picks the table itself. -/
def posR (a1 : S1x528x1024.Idx → Elt F .f32) (a2 : S1x1x256.Idx → Elt F .f32) : S1025x1024.Idx → Elt F .f32 :=
  concatenate S1025x1024 0
    [⟨S1x1024,
        shapeCast S1x1024
          (broadcastInDim S1x1x4x256 ![0, 1, 2, 3] bcast_S1x1x1x256_S1x1x4x256_0_1_2_3
            (shapeCast S1x1x1x256 (shapeCast S1x256 a2 shapeCasts_S1x1x256_S1x256) shapeCasts_S1x256_S1x1x1x256))
          shapeCasts_S1x1x4x256_S1x1024⟩,
     ⟨S1024x1024,
        shapeCast S1024x1024
          (Host.gather gather_S1024x4x256_S1024x4x2_S1024x4x256_2_01_n_n_01_2_11256
            (Host.gather gather_S528x4x256_S1024x1_S1024x4x256_12_0_n_n_0_1_14256
              (shapeCast S528x4x256 (shapeCast S528x1024 a1 shapeCasts_S1x528x1024_S528x1024) shapeCasts_S528x1024_S528x4x256)
              (broadcastInDim S1024x1 ![0] bcast_S1024_S1024x1_0
                (select (constantI S1024 1 0#1)
                  (addi (fun i => lit0 (S1024.rowMajor i)) (broadcastInDim S1024 ![] bcast_S_S1024 (constantI S_ 32 528#32)))
                  (fun i => lit0 (S1024.rowMajor i)))))
            (concatenate S1024x4x2 2
              [⟨S1024x4x1,
                  broadcastInDim S1024x4x1 ![0, 1] bcast_S1024x4_S1024x4x1_0_1
                    (broadcastInDim S1024x4 ![0, 1] bcast_S1024x1_S1024x4_0_1
                      (select (constantI S1024x1 1 0#1)
                        (addi (fun i => lit1 (S1024x1.rowMajor i)) (broadcastInDim S1024x1 ![] bcast_S_S1024x1 (constantI S_ 32 1024#32)))
                        (fun i => lit1 (S1024x1.rowMajor i))))⟩,
               ⟨S1024x4x1,
                  broadcastInDim S1024x4x1 ![0, 1] bcast_S1024x4_S1024x4x1_0_1
                    (select (constantI S1024x4 1 0#1)
                      (addi (fun i => lit2 (S1024x4.rowMajor i)) (broadcastInDim S1024x4 ![] bcast_S_S1024x4 (constantI S_ 32 4#32)))
                      (fun i => lit2 (S1024x4.rowMajor i)))⟩]
              concatenates_S1024x4x1_S1024x4x1_S1024x4x2_d2))
          shapeCasts_S1024x4x256_S1024x1024⟩]
    concatenates_S1x1024_S1024x1024_S1025x1024_d0

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., reshape_bufs_sub .., reshape_bufs_sub .., nullary_bufs_sub .., unary_bufs_sub .., binary_bufs_sub .., ternary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., unary_bufs_sub .., binary_bufs_sub .., binary_bufs_sub .., reshape_bufs_sub .., reshape_bufs_sub .., reshape_bufs_sub .., unary_bufs_sub .., reshape_bufs_sub .., binary_bufs_sub .., unary_bufs_sub .., unary_bufs_sub .., binary_bufs_sub ..⟩

-- the closing `rfl` identifies each reshape's element-type cast (between equal closed element types) with the identity,
-- eight times over, and each buffer's declared shape with its literal
set_option maxHeartbeats 400000 in
/-- The result buffer after the 36 operations: `x` plus the positional table broadcast along the batch axis. -/
theorem after_v26 (m : (ℓ : Loc nD τ sig) → Buf (Elt F) ℓ) (c : Dev nD) :
    after (ops (F := F)) (launchContents m c) (Proc.devRef .tc main_v26)
      = addf (m ((c.tc : Thread nD τ).loc main_arg0))
          (broadcastInDim S64x1025x1024 ![0, 1, 2] bcast_S1x1025x1024_S64x1025x1024_0_1_2
            (broadcastInDim S1x1025x1024 ![1, 2] bcast_S1025x1024_S1x1025x1024_1_2
              (posR (m ((c.tc : Thread nD τ).loc main_arg1)) (m ((c.tc : Thread nD τ).loc main_arg2))))) := by
  after_results
  rfl

/-- No operation writes an argument. -/
theorem after_arg0 (m : (ℓ : Loc nD τ sig) → Buf (Elt F) ℓ) (c : Dev nD) :
    after (ops (F := F)) (launchContents m c) (Proc.devRef .tc main_arg0) = m ((c.tc : Thread nD τ).loc main_arg0) := by
  after_results_simp
theorem after_arg1 (m : (ℓ : Loc nD τ sig) → Buf (Elt F) ℓ) (c : Dev nD) :
    after (ops (F := F)) (launchContents m c) (Proc.devRef .tc main_arg1) = m ((c.tc : Thread nD τ).loc main_arg1) := by
  after_results_simp
theorem after_arg2 (m : (ℓ : Loc nD τ sig) → Buf (Elt F) ℓ) (c : Dev nD) :
    after (ops (F := F)) (launchContents m c) (Proc.devRef .tc main_arg2) = m ((c.tc : Thread nD τ).loc main_arg2) := by
  after_results_simp

/-- On every device, for any float values, from any memory with zero counters: every weakly fair execution of
    `@main` terminates with the result buffer at `x + pos` (the positional table `posR` of the two small
    arguments, broadcast along the batch axis) and the three arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = addf (m ((c.tc : Thread nD τ).loc main_arg0))
              (broadcastInDim S64x1025x1024 ![0, 1, 2] bcast_S1x1025x1024_S64x1025x1024_0_1_2
                (broadcastInDim S1x1025x1024 ![1, 2] bcast_S1025x1024_S1x1025x1024_1_2
                  (posR (m ((c.tc : Thread nD τ).loc main_arg1)) (m ((c.tc : Thread nD τ).loc main_arg2)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v26).trans (after_v26 m c),
      (h c main_arg0).trans (after_arg0 m c),
      (h c main_arg1).trans (after_arg1 m c),
      (h c main_arg2).trans (after_arg2 m c)⟩)
    (run_seq scopedRefs_eq scopedSems_eq defs main (fun _ => ops) main_eq (fun _ => ops_sub) m ρ)

/-- The result read at an index: entry (b, s, d) is x(b, s, d) + pos(s, d). The outer broadcast reads its
    operand at (0, s, d), the inner one reads the table at (s, d). -/
theorem result_apply (a0 : S64x1025x1024.Idx → Elt F .f32) (p : S1025x1024.Idx → Elt F .f32) (i : S64x1025x1024.Idx) :
    addf a0 (broadcastInDim S64x1025x1024 ![0, 1, 2] bcast_S1x1025x1024_S64x1025x1024_0_1_2
              (broadcastInDim S1x1025x1024 ![1, 2] bcast_S1025x1024_S1x1025x1024_1_2 p)) i
      = FloatOps.addf (a0 i) (p (@Idealize.ShloMosaic.ValueIdx.ix2 1025 1024 (i 1) (i 2))) := by
  have e1 := broadcastInDim_apply ![0, 1, 2] bcast_S1x1025x1024_S64x1025x1024_0_1_2
      (broadcastInDim S1x1025x1024 ![1, 2] bcast_S1025x1024_S1x1025x1024_1_2 p) i
      (@ValueIdx.ix3 1 1025 1024 0 (i 1) (i 2)) (by
        intro a
        match a with
        | ⟨0, _⟩ => rfl
        | ⟨1, _⟩ => rfl
        | ⟨2, _⟩ => rfl)
  have e2 := broadcastInDim_apply ![1, 2] bcast_S1025x1024_S1x1025x1024_1_2 p
      (@ValueIdx.ix3 1 1025 1024 0 (i 1) (i 2)) (@ValueIdx.ix2 1025 1024 (i 1) (i 2)) (by
        intro a
        match a with
        | ⟨0, _⟩ => rfl
        | ⟨1, _⟩ => rfl)
  exact congrArg (FloatOps.addf (a0 i)) (e1.trans e2)

end Cert.ReferenceIdeal.Hand

end
-- ==== Proof.PosEq.lean ====
/-
  The positional table is ONE function of the two small arguments in both programs: the kernel's host prefix and the
  reference build it by the same 33 operations over the same three literal index tables, so the two composed terms
  agree by unfolding. The tables and the two gather records are identified first, each on its own; what is left
  between the two terms is the spelling of the shapes and the proofs of the shape relations.
-/
import proofs.«169798_j41120016892507_1_alg».proof.Proof.KIPos
import proofs.«169798_j41120016892507_1_alg».proof.Proof.RefRun

noncomputable section

namespace Cert.Bridge

open Idealize.ShloMosaic

variable {F : FTy → Type} [FloatOps F]

/-- The three literal index tables are the same functions in the two programs (the same digit trees). -/
theorem lit0_eq : Cert.KernelIdeal.lit0 = Cert.ReferenceIdeal.lit0 := rfl
theorem lit1_eq : Cert.KernelIdeal.lit1 = Cert.ReferenceIdeal.lit1 := rfl
theorem lit2_eq : Cert.KernelIdeal.lit2 = Cert.ReferenceIdeal.lit2 := rfl

/-- The two gather records are the same records in the two programs. -/
theorem gatherRows_eq :
    Cert.KernelIdeal.gather_S528x4x256_S1024x1_S1024x4x256_12_0_n_n_0_1_14256
      = Cert.ReferenceIdeal.gather_S528x4x256_S1024x1_S1024x4x256_12_0_n_n_0_1_14256 := rfl
theorem gatherPairs_eq :
    Cert.KernelIdeal.gather_S1024x4x256_S1024x4x2_S1024x4x256_2_01_n_n_01_2_11256
      = Cert.ReferenceIdeal.gather_S1024x4x256_S1024x4x2_S1024x4x256_2_01_n_n_01_2_11256 := rfl

theorem posK_eq_posR (a1 : Cert.KernelIdeal.S1x528x1024.Idx → Elt F .f32) (a2 : Cert.KernelIdeal.S1x1x256.Idx → Elt F .f32) :
    Cert.KernelIdeal.Hand.posK a1 a2 = Cert.ReferenceIdeal.Hand.posR a1 a2 := by
  unfold Cert.KernelIdeal.Hand.posK Cert.ReferenceIdeal.Hand.posR
  -- what is left differs only in how the shapes are spelt and in the proofs of the shape relations: the rewrite closes it
  rw [lit0_eq, lit1_eq, lit2_eq, gatherRows_eq, gatherPairs_eq]

end Cert.Bridge

end
-- ==== Proof.lean ====
/-
  The certificate. Both programs build the positional table pos[1025, 1024] on the host by the same 33 operations
  (row 0 the quarter row tiled four times; rows 1..1024 two gathers of the learned rows through constant index
  tables), so pos is ONE function of the two small arguments in both. The kernel's pallas_call then adds to every
  (16, 128, 1024) block of x the matching (128, 1024) rows of pos laid along the batch axis, and writes the blocks
  back — at the end of the sequence axis (1025 = 8·128 + 1) only the one row inside the arrays; the reference
  broadcasts pos along the batch axis and adds. Entry (b, s, d) of either result is x(b, s, d) + pos(s, d): the two
  sides are the same sum, term by term, and no law of the extended reals is needed beyond that.
  The kernel's frame (at both readings of the floats) is the pipeline's run over proof data that name each staging
  buffer only on the part its clipped transfers move; the kernel's value is the write-backs' cover of the result
  array; the reference's run is its 36 operations read back.
-/
import proofs.«169798_j41120016892507_1_alg».proof.Defs
import proofs.«169798_j41120016892507_1_alg».proof.Proof.Gen.Kernel
import proofs.«169798_j41120016892507_1_alg».proof.Proof.Gen.KernelIdeal
import proofs.«169798_j41120016892507_1_alg».proof.Proof.Gen.ReferenceIdeal
import proofs.«169798_j41120016892507_1_alg».proof.Proof.Gen.Pre_finite_inputs
import proofs.«169798_j41120016892507_1_alg».proof.Proof.KBody
import proofs.«169798_j41120016892507_1_alg».proof.Proof.KIBody
import proofs.«169798_j41120016892507_1_alg».proof.Proof.KIValue
import proofs.«169798_j41120016892507_1_alg».proof.Proof.KIPos
import proofs.«169798_j41120016892507_1_alg».proof.Proof.RefRun
import proofs.«169798_j41120016892507_1_alg».proof.Proof.PosEq
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Hand.run (F := Ideal) m ρ)

/-- Both results hold x(b, s, d) + pos(s, d) at (b, s, d), with pos the one function of the two small arguments. -/
theorem algebraic : Cert.algebraic_KernelIdeal_ReferenceIdeal := by
  intro m ρ m' ρ' _ hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  funext i
  rw [Cert.ReferenceIdeal.Hand.result_apply, Cert.KernelIdeal.Hand.V_main_v23, Cert.Bridge.posK_eq_posR]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
